-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S640000x1 : Shape := ⟨2, ![640000, 1]⟩
abbrev S256x128 : Shape := ⟨2, ![256, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000x1 : S_.BroadcastsInDim S640000x1 (![] : Fin 0 → Fin S640000x1.rank)
  reducesTo_S640000x1_S_d0_1 : S640000x1.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S40000x128 .f32) (main_arg1 : IVec S2x640000 32) (main_arg2 : FVec F S640000x1 .f32) (main_arg3 : FVec F S256x128 .f32) (main_arg4 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000x1 .f32 := Host.absf main_arg2
  let main_cst_0 : FVec F S_ .f32 := constant S_ .f32 0x7F800000#32
  let main_v5 : FVec F S640000x1 .f32 := broadcastInDim S640000x1 ![] bcast_S_S640000x1 main_cst_0
  let main_v6 : IVec S640000x1 1 := cmpf .olt main_v4 main_v5
  let main_c_1 : IVec S_ 1 := constantI S_ 1 1#1
  let main_v7 : IVec S_ 1 := (fun x v => Host.reduce IntOp.andi x v reducesTo_S640000x1_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S40000x128 : Shape := ⟨2, ![40000, 128]⟩
abbrev S2x640000 : Shape := ⟨2, ![2, 640000]⟩
abbrev S640000x1 : Shape := ⟨2, ![640000, 1]⟩
abbrev S256x128 : Shape := ⟨2, ![256, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x128 : Shape := ⟨2, ![640000, 128]⟩
abbrev S128x128 : Shape := ⟨2, ![128, 128]⟩
abbrev S5120x128 : Shape := ⟨2, ![5120, 128]⟩
abbrev S5120 : Shape := ⟨1, ![5120]⟩
abbrev S5120x1 : Shape := ⟨2, ![5120, 1]⟩
abbrev S40000 : Shape := ⟨1, ![40000]⟩
abbrev S40000x1 : Shape := ⟨2, ![40000, 1]⟩
abbrev S1x128 : Shape := ⟨2, ![1, 128]⟩

abbrev nBuf : Space → Nat
  | .hbm => 53
  | .vmem => 10
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000x1, .f32⟩
  | .hbm, ⟨3, _⟩ => ⟨S256x128, .f32⟩
  | .hbm, ⟨4, _⟩ => ⟨S128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S40000x128, .bf16⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .bf16⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .bf16⟩
  | .hbm, ⟨28, _⟩ => ⟨S128x128, .f32⟩
  | .hbm, ⟨29, _⟩ => ⟨S128x128, .bf16⟩
  | .hbm, ⟨30, _⟩ => ⟨S128x128, .f32⟩
  | .hbm, ⟨31, _⟩ => ⟨S128x128, .bf16⟩
  | .hbm, ⟨32, _⟩ => ⟨S640000, .f32⟩
  | .hbm, ⟨33, _⟩ => ⟨S640000x128, .f32⟩
  | .hbm, ⟨34, _⟩ => ⟨S_, .f32⟩
  | .hbm, ⟨35, _⟩ => ⟨S40000x128, .f32⟩
  | .hbm, ⟨36, _⟩ => ⟨S640000x1, .i32⟩
  | .hbm, ⟨37, _⟩ => ⟨S40000x128, .f32⟩
  | .hbm, ⟨38, _⟩ => ⟨S_, .f32⟩
  | .hbm, ⟨39, _⟩ => ⟨S640000, .f32⟩
  | .hbm, ⟨40, _⟩ => ⟨S_, .f32⟩
  | .hbm, ⟨41, _⟩ => ⟨S40000, .f32⟩
  | .hbm, ⟨42, _⟩ => ⟨S640000x1, .i32⟩
  | .hbm, ⟨43, _⟩ => ⟨S40000, .f32⟩
  | .hbm, ⟨44, _⟩ => ⟨S_, .f32⟩
  | .hbm, ⟨45, _⟩ => ⟨S40000, .f32⟩
  | .hbm, ⟨46, _⟩ => ⟨S40000, .f32⟩
  | .hbm, ⟨47, _⟩ => ⟨S40000x1, .f32⟩
  | .hbm, ⟨48, _⟩ => ⟨S40000x128, .f32⟩
  | .hbm, ⟨49, _⟩ => ⟨S40000x128, .f32⟩
  | .hbm, ⟨50, _⟩ => ⟨S1x128, .f32⟩
  | .hbm, ⟨51, _⟩ => ⟨S40000x128, .f32⟩
  | .hbm, ⟨52, _⟩ => ⟨S40000x128, .f32⟩
  | .local _ .vmem, ⟨0, _⟩ => ⟨S5120x128, .bf16⟩
  | .local _ .vmem, ⟨1, _⟩ => ⟨S5120x128, .bf16⟩
  | .local _ .vmem, ⟨2, _⟩ => ⟨S5120x128, .bf16⟩
  | .local _ .vmem, ⟨3, _⟩ => ⟨S5120x128, .bf16⟩
  | .local _ .vmem, ⟨4, _⟩ => ⟨S5120, .f32⟩
  | .local _ .vmem, ⟨5, _⟩ => ⟨S5120, .f32⟩
  | .local _ .vmem, ⟨6, _⟩ => ⟨S128x128, .bf16⟩
  | .local _ .vmem, ⟨7, _⟩ => ⟨S128x128, .bf16⟩
  | .local _ .vmem, ⟨8, _⟩ => ⟨S5120x128, .f32⟩
  | .local _ .vmem, ⟨9, _⟩ => ⟨S5120x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5120x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5120x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5120 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5120x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bitsLt_bf16_f32 : FTy.bits .bf16 < FTy.bits .f32
  bcast_S_S640000 : S_.BroadcastsInDim S640000 (![] : Fin 0 → Fin S640000.rank)
  bcast_S640000_S640000x1_0 : S640000.BroadcastsInDim S640000x1 (![0] : Fin 1 → Fin S640000x1.rank)
  slices_S256x128_S128x128_0_0 : S256x128.Slices ![0, 0] S128x128
  slices_S256x128_S128x128_128_0 : S256x128.Slices ![128, 0] S128x128
  shapeCasts_S640000x1_S640000 : S640000x1.ShapeCasts S640000
  inb_S5120x128_S5120x128_0_0 : ∀ a, (![0, 0] : Fin 2 → Nat) a + S5120x128.size a ≤ S5120x128.size a
  h_S5120x128 : 0 < S5120x128.numel
  shapeCasts_S5120x128_S5120x128 : S5120x128.ShapeCasts S5120x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5120_S5120_0 : ∀ a, (![0] : Fin 1 → Nat) a + S5120.size a ≤ S5120.size a
  h_S5120 : 0 < S5120.numel
  shapeCasts_S5120_S5120 : S5120.ShapeCasts S5120
  shapeCasts_S5120_S5120x1 : S5120.ShapeCasts S5120x1
  broadcasts_S5120x1_S5120x128 : S5120x1.Broadcasts S5120x128
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  gather_S40000x128_S640000x1_S640000x128_1_0_n_n_0_1_1128_wf : GatherDims.WF S40000x128 S640000x1 S640000x128 [1] [0] [] [0] [] 1 ![1, 128]
  dot_S5120x128_S128x128_S5120x128_1_0_0_1_n_n_wf : DotDims.WF S5120x128 S128x128 S5120x128 [1] [0] [0] [1] [] []
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5120x128.size a ≤ S640000x128.size a
  hwx0_0 : ∀ i : grid0.Coords, EltTy.bits .bf16 = 32 ∨ (Rect.block (s := S640000x128) S5120x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5120x128.size a ≤ S640000x128.size a
  hwx0_1 : ∀ i : grid0.Coords, EltTy.bits .bf16 = 32 ∨ (Rect.block (s := S640000x128) S5120x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5120.size a ≤ S640000.size a
  hwx0_2 : ∀ i : grid0.Coords, EltTy.bits .f32 = 32 ∨ (Rect.block (s := S640000) S5120.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5120x128.size a ≤ S640000x128.size a
  hwx0_5 : ∀ i : grid0.Coords, EltTy.bits .f32 = 32 ∨ (Rect.block (s := S640000x128) S5120x128.size (cc0_transform_5 i) (hinb0_5 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S5120x128_S128x128_S5120x128_1_0_0_1_n_n : DotDims S5120x128 S128x128 S5120x128 where
  lhsContracting := [1]
  rhsContracting := [0]
  lhsNonContracting := [0]
  rhsNonContracting := [1]
  lhsBatch := []
  rhsBatch := []
  wf := dot_S5120x128_S128x128_S5120x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf

abbrev win0_0 : Pipeline.Window sig grid0 :=
  Pipeline.Window.ofSpec (Memref.whole main_v11) S5120x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5120x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S5120.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5120x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S640000x1 : Shape := ⟨2, ![640000, 1]⟩
abbrev S256x128 : Shape := ⟨2, ![256, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x128 : Shape := ⟨2, ![640000, 128]⟩
abbrev S640000x256 : Shape := ⟨2, ![640000, 256]⟩
abbrev S40000 : Shape := ⟨1, ![40000]⟩
abbrev S40000x1 : Shape := ⟨2, ![40000, 1]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000x1, .f32⟩
  | .hbm, ⟨3, _⟩ => ⟨S256x128, .f32⟩
  | .hbm, ⟨4, _⟩ => ⟨S128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .f32⟩
  | .hbm, ⟨27, _⟩ => ⟨S640000x256, .f32⟩
  | .hbm, ⟨28, _⟩ => ⟨S640000x128, .f32⟩
  | .hbm, ⟨29, _⟩ => ⟨S640000x128, .f32⟩
  | .hbm, ⟨30, _⟩ => ⟨S640000x128, .f32⟩
  | .hbm, ⟨31, _⟩ => ⟨S_, .f32⟩
  | .hbm, ⟨32, _⟩ => ⟨S40000x128, .f32⟩
  | .hbm, ⟨33, _⟩ => ⟨S640000x1, .i32⟩
  | .hbm, ⟨34, _⟩ => ⟨S40000x128, .f32⟩
  | .hbm, ⟨35, _⟩ => ⟨S_, .f32⟩
  | .hbm, ⟨36, _⟩ => ⟨S640000, .f32⟩
  | .hbm, ⟨37, _⟩ => ⟨S_, .f32⟩
  | .hbm, ⟨38, _⟩ => ⟨S40000, .f32⟩
  | .hbm, ⟨39, _⟩ => ⟨S640000x1, .i32⟩
  | .hbm, ⟨40, _⟩ => ⟨S40000, .f32⟩
  | .hbm, ⟨41, _⟩ => ⟨S_, .f32⟩
  | .hbm, ⟨42, _⟩ => ⟨S40000, .f32⟩
  | .hbm, ⟨43, _⟩ => ⟨S40000, .f32⟩
  | .hbm, ⟨44, _⟩ => ⟨S40000x1, .f32⟩
  | .hbm, ⟨45, _⟩ => ⟨S40000x128, .f32⟩
  | .hbm, ⟨46, _⟩ => ⟨S40000x128, .f32⟩
  | .hbm, ⟨47, _⟩ => ⟨S1x128, .f32⟩
  | .hbm, ⟨48, _⟩ => ⟨S40000x128, .f32⟩
  | .hbm, ⟨49, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x256_d1 : Shape.Concatenates [S640000x128, S640000x128] S640000x256 1
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  gather_S40000x128_S640000x1_S640000x128_1_0_n_n_0_1_1128_wf : GatherDims.WF S40000x128 S640000x1 S640000x128 [1] [0] [] [0] [] 1 ![1, 128]
  dot_S640000x256_S256x128_S640000x128_1_0_0_1_n_n_wf : DotDims.WF S640000x256 S256x128 S640000x128 [1] [0] [0] [1] [] []
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf

class Facts : Prop extends Facts₀ where

variable [Facts]
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.EdgeLaw.lean ====
/-
  Message passing on a graph with 640000 edges and 128 channels.  Edge `e` sends to its destination node, on
  output channel `j`, its attribute times a linear projection of the two endpoint feature rows laid side by side:

      msg e j = a e · Σ_{k < 256} [xr e | xc e] k · W k j .

  Splitting the 256 summands into the first 128 (the source row against the upper half of `W`) and the last 128
  (the target row against the lower half) gives

      msg e j = a e · (Σ_{k < 128} xr e k · W₁ k j + Σ_{k < 128} xc e k · W₂ k j) ,

  which is the form defined here.  The split is the re-bracketing of a finite sum, valid in every commutative
  monoid; on the extended reals it therefore needs no finiteness of the summands.
-/
import Mathlib.Algebra.BigOperators.Fin
import Idealize.ShloMosaic.Lib.ValueIdx

noncomputable section

namespace Cert.GinEdge

open Idealize.ShloMosaic Idealize.ShloMosaic.ValueIdx

/-- The message array in split form: `xr`, `xc` the endpoint rows of every edge, `ea` the edge attributes,
    `w1`, `w2` the upper and lower halves of the projection. -/
def edgeMsg (xr xc : (⟨2, ![640000, 128]⟩ : Shape).Idx → EReal) (ea : (⟨1, ![640000]⟩ : Shape).Idx → EReal)
    (w1 w2 : (⟨2, ![128, 128]⟩ : Shape).Idx → EReal) : (⟨2, ![640000, 128]⟩ : Shape).Idx → EReal := fun j =>
  ea (ix1 (j 0)) * (∑ k : Fin 128, xr (ix2 (j 0) k) * w1 (ix2 k (j 1)) + ∑ k : Fin 128, xc (ix2 (j 0) k) * w2 (ix2 k (j 1)))

/-- The message of edge `e` on channel `j`. -/
theorem edgeMsg_apply (xr xc : (⟨2, ![640000, 128]⟩ : Shape).Idx → EReal) (ea : (⟨1, ![640000]⟩ : Shape).Idx → EReal)
    (w1 w2 : (⟨2, ![128, 128]⟩ : Shape).Idx → EReal) (e : Fin 640000) (j : Fin 128) :
    edgeMsg xr xc ea w1 w2 (ix2 e j)
      = ea (ix1 e) * (∑ k : Fin 128, xr (ix2 e k) * w1 (ix2 k j) + ∑ k : Fin 128, xc (ix2 e k) * w2 (ix2 k j)) := rfl

/-- A sum of 256 terms is the sum of its first 128 plus the sum of its last 128. -/
theorem sum_halves {M : Type*} [AddCommMonoid M] (f : Fin 256 → M) :
    ∑ k : Fin 256, f k = ∑ k : Fin 128, f ⟨k.val, by omega⟩ + ∑ k : Fin 128, f ⟨128 + k.val, by omega⟩ :=
  Fin.sum_univ_add (a := 128) (b := 128) f

end Cert.GinEdge

end
-- ==== Proof.KerBlock.lean ====
/-
  One grid point of the message kernel.  The body holds a block of 5120 edges: their source rows `x0`, their target
  rows `x1` (each [5120, 128]), their attributes `x2` ([5120]) and the two halves `x3`, `x4` of the projection
  ([128, 128]).  It stores, at row `p` and channel `q`,

      x2 p · (Σ_k x0 p k · x3 k q + Σ_k x1 p k · x4 k q) :

  two matrix products into zero accumulators, added, and scaled by the attribute kept as a column and spread over
  the 128 channels.
-/
import proofs.«152247_j34651796144642_1_alg».proof.Proof.Gen.KernelIdeal.Skeleton
import proofs.«152247_j34651796144642_1_alg».proof.Proof.LibRowOps
import proofs.«152247_j34651796144642_1_alg».proof.Proof.EdgeLaw

noncomputable section

namespace Cert.GinEdge

open Idealize.ShloMosaic Idealize.ShloMosaic.ValueIdx Cert.KernelIdeal Cert.KernelIdeal.Gen

/-- The stored value of the body at row `p`, channel `q` of its block. -/
theorem pay_apply (x0 : FVec Ideal S5120x128 .bf16) (x3 : FVec Ideal S128x128 .bf16) (x1 : FVec Ideal S5120x128 .bf16)
    (x4 : FVec Ideal S128x128 .bf16) (x2 : FVec Ideal S5120 .f32) (p : Fin 5120) (q : Fin 128) :
    k0_pay1 (F := Ideal) x0 x3 x1 x4 x2 (ix2 p q)
      = x2 (ix1 p) * (∑ k : Fin 128, x0 (ix2 p k) * x3 (ix2 k q) + ∑ k : Fin 128, x1 (ix2 p k) * x4 (ix2 k q)) := by
  unfold k0_pay1
  rw [mulf_apply, addf_apply, Cert.RowOps.broadcastTo_a1_ab_apply, Cert.RowOps.shapeCast_a_a1_apply]
  simp only [shapeCast_self]
  have hA : matmul (F := Ideal) dot_S5120x128_S128x128_S5120x128_1_0_0_1_n_n none x0 x3 (constant S5120x128 .f32 0x00000000#32) (ix2 p q)
      = ∑ k : Fin 128, x0 (ix2 p k) * x3 (ix2 k q) :=
    Cert.RowOps.matmul_apply dot_S5120x128_S128x128_S5120x128_1_0_0_1_n_n_wf none x0 x3 p q
  have hB : matmul (F := Ideal) dot_S5120x128_S128x128_S5120x128_1_0_0_1_n_n none x1 x4 (constant S5120x128 .f32 0x00000000#32) (ix2 p q)
      = ∑ k : Fin 128, x1 (ix2 p k) * x4 (ix2 k q) :=
    Cert.RowOps.matmul_apply dot_S5120x128_S128x128_S5120x128_1_0_0_1_n_n_wf none x1 x4 p q
  rw [hA, hB]

/-- A grid point's stored entry is an entry of the message array.  If row `p` of the point's blocks holds edge `e`
    — its source row, its target row, its attribute — and the two projection blocks are the two halves, then the body's
    value at row `p`, channel `q` is the message of edge `e` on channel `q`. -/
theorem point_msg (xr xc : FVec Ideal S640000x128 .bf16) (ea : FVec Ideal S640000 .f32) (w1 w2 : FVec Ideal S128x128 .bf16)
    (x0 x1 : FVec Ideal S5120x128 .bf16) (x2 : FVec Ideal S5120 .f32) (x3 x4 : FVec Ideal S128x128 .bf16)
    (p : Fin 5120) (q : Fin 128) (e : Fin 640000)
    (h0 : ∀ k : Fin 128, x0 (ix2 p k) = xr (ix2 e k)) (h1 : ∀ k : Fin 128, x1 (ix2 p k) = xc (ix2 e k))
    (h2 : x2 (ix1 p) = ea (ix1 e)) (h3 : x3 = w1) (h4 : x4 = w2) :
    k0_pay1 (F := Ideal) x0 x3 x1 x4 x2 (ix2 p q) = edgeMsg xr xc ea w1 w2 (ix2 e q) := by
  rw [pay_apply, edgeMsg_apply]
  simp only [h0, h1, h2, h3, h4]

end Cert.GinEdge

end
-- ==== Proof.KerArray.lean ====
/-
  From the grid points to the whole message array.  The 640000 edges are cut into 125 blocks of 5120; point `t` is given
  block `t` of the source rows, the target rows and the attributes, and both halves of the projection whole, and writes back
  block `t` of the result.  Every edge lies in exactly the block `e / 5120`, so the blocks tile the result, and the result
  array after the last point is the message array `edgeMsg` of the five arrays the region is entered with.
-/
import proofs.«152247_j34651796144642_1_alg».proof.Proof.Gen.KernelIdeal.Frame
import proofs.«152247_j34651796144642_1_alg».proof.Proof.KerBlock
import Idealize.ShloMosaic.Lib.Pipeline.Value

set_option maxRecDepth 16384

noncomputable section

namespace Cert.GinEdge

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ)

theorem zero_off2 : (![0, 0] : Fin 2 → Nat) = fun _ => 0 := funext fun a => by fin_cases a <;> rfl
theorem zero_off1 : (![0] : Fin 1 → Nat) = fun _ => 0 := funext fun a => by fin_cases a; rfl

/-- The block index of every window at point `t`: the three edge-indexed inputs and the output sit at block `t` of the
    edge axis, the two projection halves at block `0`; decided over the 125 points. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 1) = t.val
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the message array. -/
theorem flushed_msg (c : Dev nD) (t : Fin cfg0.N) :
    (dats m 0 c).flushed 5 t = ((cfg0.win 5).blk t).view.read (Elt Ideal)
      (edgeMsg (V m c main_v11) (V m c main_v18) (V m c main_v23) (V m c main_v20) (V m c main_v22)) := by
  show (cfg0.win 5).cut (grid0.coords t) ((dats m 0 c).after 5 t) = _
  rw [after0_5]
  unfold out0_5
  rw [View.canon_unit_zero zero_off2]
  simp only [View.ld_unit_zero (S := S5120x128) zero_off2, View.ld_unit_zero (S := S128x128) zero_off2,
    View.ld_unit_zero (S := S5120) zero_off1]
  obtain ⟨e00, e01, e10, e11, e20, e30, e31, e40, e41, e50, e51⟩ := block_index t
  have hN : cfg0.N = 125 := N_0
  have ht : t.val < 125 := hN ▸ t.isLt
  funext j
  obtain ⟨p, q, rfl⟩ : ∃ (p : Fin 5120) (q : Fin 128), j = ix2 p q := ⟨j 0, j 1, eq_ix2 j⟩
  have hp : p.val < 5120 := p.isLt
  -- row `p` of block `t` is edge `t · 5120 + p`
  have he : t.val * 5120 + p.val < 640000 := by omega
  have hemb : ((cfg0.win 5).blk t).view.emb (ix2 p q) = ix2 (⟨t.val * 5120 + p.val, he⟩ : Fin 640000) q := by
    funext a; apply Fin.ext
    match a with
    | ⟨0, _⟩ => show win0_5.index t (0 : Fin 2) * 5120 + 1 * p.val = t.val * 5120 + p.val; omega
    | ⟨1, _⟩ => show win0_5.index t (1 : Fin 2) * 128 + 1 * q.val = q.val; omega
  show k0_pay1 (F := Ideal) (iblk m c 0 t) (iblk m c 3 t) (iblk m c 1 t) (iblk m c 4 t) (iblk m c 2 t) (ix2 p q)
    = edgeMsg (V m c main_v11) (V m c main_v18) (V m c main_v23) (V m c main_v20) (V m c main_v22)
        (((cfg0.win 5).blk t).view.emb (ix2 p q))
  rw [hemb]
  refine point_msg (V m c main_v11) (V m c main_v18) (V m c main_v23) (V m c main_v20) (V m c main_v22)
    (iblk m c 0 t) (iblk m c 1 t) (iblk m c 2 t) (iblk m c 3 t) (iblk m c 4 t) p q ⟨t.val * 5120 + p.val, he⟩ ?_ ?_ ?_ ?_ ?_
  · intro k
    show V m c main_v11 (((cfg0.win 0).blk t).view.emb (ix2 p k)) = V m c main_v11 (ix2 (⟨t.val * 5120 + p.val, he⟩ : Fin 640000) k)
    refine congrArg (V m c main_v11) (funext fun a => Fin.ext ?_)
    match a with
    | ⟨0, _⟩ => show win0_0.index t (0 : Fin 2) * 5120 + 1 * p.val = t.val * 5120 + p.val; omega
    | ⟨1, _⟩ => show win0_0.index t (1 : Fin 2) * 128 + 1 * k.val = k.val; omega
  · intro k
    show V m c main_v18 (((cfg0.win 1).blk t).view.emb (ix2 p k)) = V m c main_v18 (ix2 (⟨t.val * 5120 + p.val, he⟩ : Fin 640000) k)
    refine congrArg (V m c main_v18) (funext fun a => Fin.ext ?_)
    match a with
    | ⟨0, _⟩ => show win0_1.index t (0 : Fin 2) * 5120 + 1 * p.val = t.val * 5120 + p.val; omega
    | ⟨1, _⟩ => show win0_1.index t (1 : Fin 2) * 128 + 1 * k.val = k.val; omega
  · show V m c main_v23 (((cfg0.win 2).blk t).view.emb (ix1 p)) = V m c main_v23 (ix1 (⟨t.val * 5120 + p.val, he⟩ : Fin 640000))
    refine congrArg (V m c main_v23) (funext fun a => Fin.ext ?_)
    match a with
    | ⟨0, _⟩ => show win0_2.index t (0 : Fin 1) * 5120 + 1 * p.val = t.val * 5120 + p.val; omega
  · funext y
    show V m c main_v20 (((cfg0.win 3).blk t).view.emb y) = V m c main_v20 y
    refine congrArg (V m c main_v20) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  · funext y
    show V m c main_v22 (((cfg0.win 4).blk t).view.emb y) = V m c main_v22 y
    refine congrArg (V m c main_v22) (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega

/-- An edge-channel index lies in point `t`'s block of the result iff each coordinate lies in the block's range. -/
theorem mem_block (t : Fin cfg0.N) (i : S640000x128.Idx) :
    i ∈ ((cfg0.win 5).blk t).view.set ↔ ∀ a : Fin 2, win0_5.index t a * S5120x128.size a ≤ (i a).val
      ∧ (i a).val < win0_5.index t a * S5120x128.size a + S5120x128.size a := by
  show i ∈ ((View.whole main_v24).slice (win0_5.rect t)).set ↔ _
  rw [View.set_slice_whole, Rect.mem_set_unit]
  exact Iff.rfl

/-- The blocks tile the result: edge `e` is written by point `e / 5120`. -/
theorem blocks_cover (i : S640000x128.Idx) :
    ∃ t : Fin cfg0.N, (cfg0.win 5).flush t = true ∧ i ∈ ((cfg0.win 5).blk t).view.set := by
  have hN : cfg0.N = 125 := N_0
  have hi0 : (i 0).val < 640000 := (i 0).isLt
  have hi1 : (i 1).val < 128 := (i 1).isLt
  have hlt : (i 0).val / 5120 < cfg0.N := by rw [hN]; omega
  obtain ⟨-, -, -, -, -, -, -, -, -, e50, e51⟩ := block_index ⟨(i 0).val / 5120, hlt⟩
  refine ⟨⟨(i 0).val / 5120, hlt⟩, flush0_5 _, ?_⟩
  rw [mem_block]
  intro a
  match a with
  | ⟨0, _⟩ =>
    show win0_5.index ⟨(i 0).val / 5120, hlt⟩ (0 : Fin 2) * 5120 ≤ (i 0).val
      ∧ (i 0).val < win0_5.index ⟨(i 0).val / 5120, hlt⟩ (0 : Fin 2) * 5120 + 5120
    rw [e50]
    show (i 0).val / 5120 * 5120 ≤ (i 0).val ∧ (i 0).val < (i 0).val / 5120 * 5120 + 5120
    omega
  | ⟨1, _⟩ =>
    show win0_5.index ⟨(i 0).val / 5120, hlt⟩ (1 : Fin 2) * 128 ≤ (i 1).val
      ∧ (i 1).val < win0_5.index ⟨(i 0).val / 5120, hlt⟩ (1 : Fin 2) * 128 + 128
    rw [e51]
    omega

/-- THE RESULT ARRAY of the region, after its last point: the message array of the arrays the region is entered with. -/
theorem msg_array (c : Dev nD) :
    (dats m 0 c).arrAt 5 cfg0.N
      = edgeMsg (V m c main_v11) (V m c main_v18) (V m c main_v23) (V m c main_v20) (V m c main_v22) :=
  (dats m 0 c).arrAt_eq_of_cover 5 _ (fun t _ => flushed_msg m c t) blocks_cover

end Cert.GinEdge

end
-- ==== Proof.NodeMean.lean ====
/-
  From messages to node outputs.  Every edge's message is added into the row of its destination node; the same is done
  with a one per edge, which counts the edges of each node; a node's sum is divided by its count, or by one if it has no
  edge; and the bias is added to every row.  Both programs do exactly this to their message arrays, with the same
  destinations and the same bias, so it is kept as ONE function of the message array and never opened.
-/
import proofs.«152247_j34651796144642_1_alg».proof.Proof.Gen.ReferenceIdeal.Read

noncomputable section

namespace Cert.GinEdge

open Idealize.ShloMosaic Cert.ReferenceIdeal Cert.ReferenceIdeal.Read

/-- The mean over each node's incoming messages, plus the bias: a function of the edge list `x1`, the bias `x4`
    and the message array. -/
def nodeMean (x1 : (⟨S2x640000, .i32⟩ : BufTy).Contents (Elt Ideal)) (x4 : (⟨S128, .f32⟩ : BufTy).Contents (Elt Ideal))
    (msg : (⟨S640000x128, .f32⟩ : BufTy).Contents (Elt Ideal)) : (⟨S40000x128, .f32⟩ : BufTy).Contents (Elt Ideal) :=
  addf (F := Ideal) (φ := .f32) (Host.divf (F := Ideal) (φ := .f32) (Host.scatterAdd (F := Ideal) (φ := .f32)
    scatter_S40000x128_S640000x1_S640000x128_1_0_0_1 (val_main_v22 (F := Ideal)) (val_main_v23 (F := Ideal) x1) msg)
    (val_main_v32 (F := Ideal) x1)) (val_main_v35 (F := Ideal) x4)

/-- The reference's result is the node mean of its message array. -/
theorem ref_result (x0 : (⟨S40000x128, .f32⟩ : BufTy).Contents (Elt Ideal)) (x1 : (⟨S2x640000, .i32⟩ : BufTy).Contents (Elt Ideal))
    (x2 : (⟨S640000x1, .f32⟩ : BufTy).Contents (Elt Ideal)) (x3 : (⟨S256x128, .f32⟩ : BufTy).Contents (Elt Ideal))
    (x4 : (⟨S128, .f32⟩ : BufTy).Contents (Elt Ideal)) :
    val_main_v36 (F := Ideal) x0 x1 x2 x3 x4 = nodeMean x1 x4 (val_main_v21 (F := Ideal) x0 x1 x2 x3) := rfl

end Cert.GinEdge

end
-- ==== Proof.KerHost.lean ====
/-
  The kernel program around its region.  Before the region the host gathers the source and target rows of every edge,
  cuts the projection into its two halves and reads the attributes as a vector (the roundings to a shorter float format
  are the identity on exact values); after it the host takes the node mean of the region's result.
-/
import proofs.«152247_j34651796144642_1_alg».proof.Proof.Gen.KernelIdeal.Frame
import proofs.«152247_j34651796144642_1_alg».proof.Proof.NodeMean
import Idealize.ShloMosaic.Lib.StableHlo.Run

set_option maxRecDepth 16384

noncomputable section

namespace Cert.GinEdge

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxHeartbeats 1000000 in
/-- The source rows the region is entered with are the reference's gathered source rows. -/
theorem entry_src (c : Dev nD) :
    V m c main_v11 = Cert.ReferenceIdeal.Read.val_main_v10 (F := Ideal) (m ((c : Thread nD τ).loc main_arg0)) (m ((c : Thread nD τ).loc main_arg1)) := by
  show StableHlo.after hostOps0 (fun b => m (c, b)) (Proc.devRef .tc main_v11) = _
  after_results_simp <;> rfl

set_option maxHeartbeats 1000000 in
/-- The target rows the region is entered with are the reference's gathered target rows. -/
theorem entry_dst (c : Dev nD) :
    V m c main_v18 = Cert.ReferenceIdeal.Read.val_main_v17 (F := Ideal) (m ((c : Thread nD τ).loc main_arg0)) (m ((c : Thread nD τ).loc main_arg1)) := by
  show StableHlo.after hostOps0 (fun b => m (c, b)) (Proc.devRef .tc main_v18) = _
  after_results_simp <;> rfl

set_option maxHeartbeats 1000000 in
/-- The attributes the region is entered with: the [640000, 1] argument read as a vector. -/
theorem entry_attr (c : Dev nD) :
    V m c main_v23 = shapeCast S640000 (m ((c : Thread nD τ).loc main_arg2)) shapeCasts_S640000x1_S640000 := by
  show StableHlo.after hostOps0 (fun b => m (c, b)) (Proc.devRef .tc main_v23) = _
  after_results_simp <;> rfl

set_option maxHeartbeats 1000000 in
/-- The upper half of the projection, as the region is entered with it. -/
theorem entry_up (c : Dev nD) :
    V m c main_v20 = extractStridedSlice S128x128 ![0, 0] (m ((c : Thread nD τ).loc main_arg3)) slices_S256x128_S128x128_0_0 := by
  show StableHlo.after hostOps0 (fun b => m (c, b)) (Proc.devRef .tc main_v20) = _
  after_results_simp <;> rfl

set_option maxHeartbeats 1000000 in
/-- The lower half of the projection, as the region is entered with it. -/
theorem entry_lo (c : Dev nD) :
    V m c main_v22 = extractStridedSlice S128x128 ![128, 0] (m ((c : Thread nD τ).loc main_arg3)) slices_S256x128_S128x128_128_0 := by
  show StableHlo.after hostOps0 (fun b => m (c, b)) (Proc.devRef .tc main_v22) = _
  after_results_simp <;> rfl

set_option maxHeartbeats 1000000 in
/-- The destination list as the host computes it before the region: the reference's. -/
theorem entry_row (c : Dev nD) :
    V m c main_v1 = Cert.ReferenceIdeal.Read.val_main_v1 (F := Ideal) (m ((c : Thread nD τ).loc main_arg1)) := by
  show StableHlo.after hostOps0 (fun b => m (c, b)) (Proc.devRef .tc main_v1) = _
  after_results_simp <;> rfl

set_option maxHeartbeats 2000000 in
/-- The program's result: the node mean of the region's result array. -/
theorem kernel_result (c : Dev nD) :
    Pipeline.afterTail₀ cfgs (dats m) 0 (V0 m) [hostOps1] c main_v39
      = nodeMean (m ((c : Thread nD τ).loc main_arg1)) (m ((c : Thread nD τ).loc main_arg4)) ((dats m 0 c).arrAt 5 cfg0.N) := by
  unfold Pipeline.afterTail₀
  simp only [List.flatten_cons, List.flatten_nil, List.append_nil]
  after_results_simp
  -- the region's result array, and the two buffers the region does not touch
  have hmsg : Pipeline.withArrays (cfgs 0).spec c (V0 m c) (fun w => (dats m 0 c).arrAt w (cfgs 0).N) (Proc.devRef .tc main_v24)
      = (dats m 0 c).arrAt 5 cfg0.N := Pipeline.withArrays_arr spec0 launch0.win.arr_inj c (V0 m c) _ 5
  have hrow : Pipeline.withArrays (cfgs 0).spec c (V0 m c) (fun w => (dats m 0 c).arrAt w (cfgs 0).N) (Proc.devRef .tc main_v1)
      = Cert.ReferenceIdeal.Read.val_main_v1 (F := Ideal) (m ((c : Thread nD τ).loc main_arg1)) :=
    (Pipeline.withArrays_of_ne spec0 c (V0 m c) _ main_v1 (by exact (by decide : ∀ w, Pipeline.arrRef spec0 w ≠ main_v1))).trans
      (entry_row m c)
  have hbias : Pipeline.withArrays (cfgs 0).spec c (V0 m c) (fun w => (dats m 0 c).arrAt w (cfgs 0).N) (Proc.devRef .tc main_arg4)
      = m ((c : Thread nD τ).loc main_arg4) :=
    (Pipeline.withArrays_of_ne spec0 c (V0 m c) _ main_arg4 (by exact (by decide : ∀ w, Pipeline.arrRef spec0 w ≠ main_arg4))).trans
      (V_main_arg4 m c)
  rw [hmsg, hrow, hbias]
  rfl

end Cert.GinEdge

end
-- ==== Proof.RefEdge.lean ====
/-
  The reference's message array.  The reference lays the gathered source rows and target rows side by side as a
  [640000, 256] array, multiplies it by the whole [256, 128] projection, and scales row `e` by the edge's attribute:

      a e · Σ_{k < 256} [xr e | xc e] k · W k j .

  For `k < 128` the joined row reads the source row at `k` and `W` row `k` is row `k` of its upper half; for `k = 128 + k'`
  it reads the target row at `k'` and `W` row `k` is row `k'` of its lower half.  Splitting the sum into its halves
  therefore gives the split form `edgeMsg` of the two gathered arrays, the attributes read as a vector, and the two
  halves of the projection.
-/
import proofs.«152247_j34651796144642_1_alg».proof.Proof.Gen.ReferenceIdeal.Read
import proofs.«152247_j34651796144642_1_alg».proof.Proof.EdgeLaw
import Idealize.ShloMosaic.Lib.Pipeline.Value

noncomputable section

namespace Cert.GinEdge

open Idealize.ShloMosaic Idealize.ShloMosaic.ValueIdx Cert.ReferenceIdeal Cert.ReferenceIdeal.Read

/-- The reference's scaled product is the message array in split form. -/
theorem ref_msg (x0 : (⟨S40000x128, .f32⟩ : BufTy).Contents (Elt Ideal)) (x1 : (⟨S2x640000, .i32⟩ : BufTy).Contents (Elt Ideal))
    (x2 : (⟨S640000x1, .f32⟩ : BufTy).Contents (Elt Ideal)) (x3 : (⟨S256x128, .f32⟩ : BufTy).Contents (Elt Ideal))
    (hs : S640000x1.ShapeCasts S640000) (hu : S256x128.Slices ![0, 0] ⟨2, ![128, 128]⟩)
    (hl : S256x128.Slices ![128, 0] ⟨2, ![128, 128]⟩) :
    val_main_v21 (F := Ideal) x0 x1 x2 x3
      = edgeMsg (val_main_v10 (F := Ideal) x0 x1) (val_main_v17 (F := Ideal) x0 x1) (shapeCast S640000 x2 hs)
          (extractStridedSlice ⟨2, ![128, 128]⟩ ![0, 0] x3 hu) (extractStridedSlice ⟨2, ![128, 128]⟩ ![128, 0] x3 hl) := by
  funext i
  obtain ⟨e, j, rfl⟩ : ∃ (e : Fin 640000) (j : Fin 128), i = ix2 e j := ⟨i 0, i 1, eq_ix2 i⟩
  -- the attribute of edge `e`
  have hE : x2 (idx_main_v20 (ix2 e j)) = shapeCast S640000 x2 hs (ix1 e) :=
    (shapeCast_apply x2 hs (ix1 e) (idx_main_v20 (ix2 e j)) (by
      rw [Shape.rowMajor_val_two, Shape.rowMajor_val_one]
      show e.val * 1 + 0 = e.val
      omega)).symm
  -- the joined row: its first half is the source row, its second half the target row
  have hA : ∀ k : Fin 128, val_main_v18 (F := Ideal) x0 x1 (lidx_main_v19 (ix2 e j) ⟨k.val, by omega⟩)
      = val_main_v10 (F := Ideal) x0 x1 (ix2 e k) := fun k => by
    unfold val_main_v18
    exact concatenate_pair_apply_left (t := S640000x256) (s₁ := S640000x128) (s₂ := S640000x128) 1
      (val_main_v10 (F := Ideal) x0 x1) (val_main_v17 (F := Ideal) x0 x1) _
      (lidx_main_v19 (ix2 e j) ⟨k.val, by omega⟩) rfl (ix2 e k) (fun b => by
      match b with
      | ⟨0, _⟩ => rfl
      | ⟨1, _⟩ => rfl)
  have hB : ∀ k : Fin 128, val_main_v18 (F := Ideal) x0 x1 (lidx_main_v19 (ix2 e j) ⟨128 + k.val, by omega⟩)
      = val_main_v17 (F := Ideal) x0 x1 (ix2 e k) := fun k => by
    unfold val_main_v18
    exact concatenate_pair_apply_right (t := S640000x256) (s₁ := S640000x128) (s₂ := S640000x128) 1
      (val_main_v10 (F := Ideal) x0 x1) (val_main_v17 (F := Ideal) x0 x1) _
      (lidx_main_v19 (ix2 e j) ⟨128 + k.val, by omega⟩) rfl rfl (ix2 e k) (fun b hb => by
      match b, hb with
      | ⟨0, _⟩, _ => rfl
      | ⟨1, _⟩, hb => exact absurd rfl hb) (by show k.val + 128 = 128 + k.val; omega)
  -- the projection: its rows below 128 are the upper half, the others the lower half
  have hU : ∀ k : Fin 128, x3 (ridx_main_v19 (ix2 e j) ⟨k.val, by omega⟩)
      = extractStridedSlice ⟨2, ![128, 128]⟩ ![0, 0] x3 hu (ix2 k j) := fun k =>
    (extractStridedSlice_apply ![0, 0] x3 hu (ix2 k j) _ (fun a => by
      match a with
      | ⟨0, _⟩ => show k.val = 0 + k.val; omega
      | ⟨1, _⟩ => show j.val = 0 + j.val; omega)).symm
  have hL : ∀ k : Fin 128, x3 (ridx_main_v19 (ix2 e j) ⟨128 + k.val, by omega⟩)
      = extractStridedSlice ⟨2, ![128, 128]⟩ ![128, 0] x3 hl (ix2 k j) := fun k =>
    (extractStridedSlice_apply ![128, 0] x3 hl (ix2 k j) _ (fun a => by
      match a with
      | ⟨0, _⟩ => show 128 + k.val = 128 + k.val; rfl
      | ⟨1, _⟩ => show j.val = 0 + j.val; omega)).symm
  rw [edgeMsg_apply, val_main_v21_apply, val_main_v20_apply, val_main_v19_apply, sum_halves]
  simp only [hE, hA, hB, hU, hL]
  rfl

end Cert.GinEdge

end
-- ==== Proof.KerValue.lean ====
/-
  The kernel program's run, read as a value.  The region's result array is the message array of what the host prepared
  (the blocks-to-array step), what the host prepared is what the reference gathers and cuts (the host prefix), and the
  message array in split form is the reference's scaled product (the half-and-half split of the 256-term sum).  So the
  region's result is the reference's message array of the arguments, and the program's result is its node mean.
-/
import proofs.«152247_j34651796144642_1_alg».proof.Proof.KerArray
import proofs.«152247_j34651796144642_1_alg».proof.Proof.KerHost
import proofs.«152247_j34651796144642_1_alg».proof.Proof.RefEdge

set_option maxRecDepth 16384

noncomputable section

namespace Cert.GinEdge

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The region's result array is the reference's message array of the arguments. -/
theorem msg_array_ref (c : Dev nD) :
    (dats m 0 c).arrAt 5 cfg0.N
      = Cert.ReferenceIdeal.Read.val_main_v21 (F := Ideal) (m ((c : Thread nD τ).loc main_arg0)) (m ((c : Thread nD τ).loc main_arg1))
          (m ((c : Thread nD τ).loc main_arg2)) (m ((c : Thread nD τ).loc main_arg3)) := by
  rw [msg_array, entry_src, entry_dst, entry_attr, entry_up, entry_lo]
  exact (ref_msg _ _ _ _ shapeCasts_S640000x1_S640000 slices_S256x128_S128x128_0_0 slices_S256x128_S128x128_128_0).symm

/-- Every weakly fair execution of the kernel program ends with its result at the node mean of the reference's message
    array of the arguments, and the arguments unchanged. -/
theorem kernel_run : θ_run defs (onTc (τ := τ) (main (F := Ideal))) ⟨m, fun _ => 0, ρ⟩ (fun r => ∀ c : Dev nD,
      r.2.mem ((c.tc : Thread nD τ).loc main_v39)
        = nodeMean (m ((c.tc : Thread nD τ).loc main_arg1)) (m ((c.tc : Thread nD τ).loc main_arg4))
            (Cert.ReferenceIdeal.Read.val_main_v21 (F := Ideal) (m ((c.tc : Thread nD τ).loc main_arg0)) (m ((c.tc : Thread nD τ).loc main_arg1))
              (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v39 (Pipeline.mem_restRefs_of main_v39 (by decide) (by decide))).trans
        ((kernel_result m c).trans (congrArg (nodeMean _ _) (msg_array_ref m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.GinEdge

end
-- ==== Proof.lean ====
/-
  Message passing with a mean over each node's incoming edges: every one of 640000 edges sends, on 128 channels, its
  attribute times a linear projection of its two endpoint feature rows; each of 40000 nodes takes the mean of the
  messages it receives (zero if it receives none) and adds a bias.

  The kernel program gathers the source and the target rows, and on a grid of 125 blocks of 5120 edges multiplies the
  source rows by the upper half of the [256, 128] projection, the target rows by its lower half, adds the two products
  and scales by the attribute; the reference joins the two gathered rows into one row of 256 and multiplies by the whole
  projection.  The two message arrays are equal entry by entry, because a sum of 256 products is the sum of its first
  128 and its last 128 (re-bracketing a finite sum: no distributive law, hence no finiteness of the entries, is used; the
  changes of float format are the identity on exact values).  Both programs then apply the same mean-and-bias to their
  message arrays, over the same destination list, so their results are equal.

  The frames of the two kernel programs and the reference's run are the generated ones; the value of the kernel
  program's run is read off its frame run (Proof/KerValue.lean), and the ideal pass rewrote nothing.
-/
import proofs.«152247_j34651796144642_1_alg».proof.Defs
import proofs.«152247_j34651796144642_1_alg».proof.Proof.Gen.Kernel
import proofs.«152247_j34651796144642_1_alg».proof.Proof.Gen.Kernel.Frame
import proofs.«152247_j34651796144642_1_alg».proof.Proof.Gen.KernelIdeal
import proofs.«152247_j34651796144642_1_alg».proof.Proof.Gen.KernelIdeal.Frame
import proofs.«152247_j34651796144642_1_alg».proof.Proof.Gen.ReferenceIdeal
import proofs.«152247_j34651796144642_1_alg».proof.Proof.Gen.ReferenceIdeal.Run
import proofs.«152247_j34651796144642_1_alg».proof.Proof.Gen.ReferenceIdeal.Read
import proofs.«152247_j34651796144642_1_alg».proof.Proof.Gen.Pre_finite_inputs
import proofs.«152247_j34651796144642_1_alg».proof.Proof.KerValue
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel (hKernel := Cert.Kernel.Gen.facts) (hPre_finite_inputs := Cert.Pre_finite_inputs.Gen.facts) :=
  fun m ρ _ => Cert.Kernel.Gen.frame m ρ

/-- The idealized kernel program runs and keeps its arguments: the generated frame. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its generated run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at the node mean of ONE message array — the reference's scaled product of the joined rows, which
    is the kernel's sum of two half products — over the same destination list and bias. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.GinEdge.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.GinEdge.ref_result, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
